-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x256 : Shape := ⟨2, ![8, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S8192x256 : Shape := ⟨2, ![8192, 256]⟩
abbrev S8192 : Shape := ⟨1, ![8192]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S8192x256 .f32) (main_arg7 : FVec F S8192 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S8192x256 .f32 := Host.absf main_arg6
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  fn_part2 (F := F) main_arg7 main_v33

def fn {F : FTy → Type} [FloatOps F] (main_arg0 : FVec F S8x4096x512 .f32) (main_arg1 : FVec F S8x256 .f32) (main_arg2 : FVec F S512x512 .f32) (main_arg3 : FVec F S512 .f32) (main_arg4 : FVec F S256x256 .f32) (main_arg5 : FVec F S256 .f32) (main_arg6 : FVec F S8192x256 .f32) (main_arg7 : FVec F S8192 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x4096x512 : Shape := ⟨3, ![8, 4096, 512]⟩
abbrev S8x256 : Shape := ⟨2, ![8, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S8192x256 : Shape := ⟨2, ![8192, 256]⟩
abbrev S8192 : Shape := ⟨1, ![8192]⟩
abbrev S1x256 : Shape := ⟨2, ![1, 256]⟩
abbrev S_ : Shape := ⟨0, ![]⟩
abbrev S256x8192 : Shape := ⟨2, ![256, 8192]⟩
abbrev S8x8192 : Shape := ⟨2, ![8, 8192]⟩
abbrev S1x8192 : Shape := ⟨2, ![1, 8192]⟩
abbrev S8x4096 : Shape := ⟨2, ![8, 4096]⟩
abbrev S8x8x512 : Shape := ⟨3, ![8, 8, 512]⟩
abbrev S8x512x8 : Shape := ⟨3, ![8, 512, 8]⟩
abbrev S1x512 : Shape := ⟨2, ![1, 512]⟩
abbrev S1x1024x512 : Shape := ⟨3, ![1, 1024, 512]⟩
abbrev S1x512x8 : Shape := ⟨3, ![1, 512, 8]⟩
abbrev S1x8x512 : Shape := ⟨3, ![1, 8, 512]⟩
abbrev S1024x512 : Shape := ⟨2, ![1024, 512]⟩
abbrev S512x8 : Shape := ⟨2, ![512, 8]⟩
abbrev S1024x8 : Shape := ⟨2, ![1024, 8]⟩
abbrev S8x512 : Shape := ⟨2, ![8, 512]⟩

abbrev nBuf : Space → Nat
  | .hbm => 36
  | .vmem => 10
  | .smem => 0
  | _ => 0

abbrev bufTy : (tb : Table) → Fin (tcTables nBuf tb) → BufTy
  | .hbm, ⟨0, _⟩ => ⟨S8x4096x512, .f32⟩
  | .hbm, ⟨1, _⟩ => ⟨S8x256, .f32⟩
  | .hbm, ⟨2, _⟩ => ⟨S512x512, .f32⟩
  | .hbm, ⟨3, _⟩ => ⟨S512, .f32⟩
  | .hbm, ⟨4, _⟩ => ⟨S256x256, .f32⟩
  | .hbm, ⟨5, _⟩ => ⟨S256, .f32⟩
  | .hbm, ⟨6, _⟩ => ⟨S8192x256, .f32⟩
  | .hbm, ⟨7, _⟩ => ⟨S8192, .f32⟩
  | .hbm, ⟨8, _⟩ => ⟨S256x256, .f32⟩
  | .hbm, ⟨9, _⟩ => ⟨S8x256, .f32⟩
  | .hbm, ⟨10, _⟩ => ⟨S1x256, .f32⟩
  | .hbm, ⟨11, _⟩ => ⟨S8x256, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S_, .f32⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S256x8192, .f32⟩
  | .hbm, ⟨23, _⟩ => ⟨S8x8192, .f32⟩
  | .hbm, ⟨24, _⟩ => ⟨S1x8192, .f32⟩
  | .hbm, ⟨25, _⟩ => ⟨S8x8192, .f32⟩
  | .hbm, ⟨26, _⟩ => ⟨S8x8192, .f32⟩
  | .hbm, ⟨27, _⟩ => ⟨S8x4096, .f32⟩
  | .hbm, ⟨28, _⟩ => ⟨S8x8x512, .f32⟩
  | .hbm, ⟨29, _⟩ => ⟨S8x4096, .f32⟩
  | .hbm, ⟨30, _⟩ => ⟨S8x512x8, .f32⟩
  | .hbm, ⟨31, _⟩ => ⟨S8x512x8, .f32⟩
  | .hbm, ⟨32, _⟩ => ⟨S8x8x512, .f32⟩
  | .hbm, ⟨33, _⟩ => ⟨S512x512, .f32⟩
  | .hbm, ⟨34, _⟩ => ⟨S1x512, .f32⟩
  | .hbm, ⟨35, _⟩ => ⟨S8x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S1x512, .f32⟩
  | .local _ .vmem, ⟨4, _⟩ => ⟨S1x512x8, .f32⟩
  | .local _ .vmem, ⟨5, _⟩ => ⟨S1x512x8, .f32⟩
  | .local _ .vmem, ⟨6, _⟩ => ⟨S1x8x512, .f32⟩
  | .local _ .vmem, ⟨7, _⟩ => ⟨S1x8x512, .f32⟩
  | .local _ .vmem, ⟨8, _⟩ => ⟨S1x1024x512, .f32⟩
  | .local _ .vmem, ⟨9, _⟩ => ⟨S1x1024x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S8192x256_S256x8192_1_0 : S8192x256.Transposes [1, 0] S256x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  slices_S8x8192_S8x4096_0_0 : S8x8192.Slices ![0, 0] S8x4096
  shapeCasts_S8x4096_S8x8x512 : S8x4096.ShapeCasts S8x8x512
  slices_S8x8192_S8x4096_0_4096 : S8x8192.Slices ![0, 4096] S8x4096
  shapeCasts_S8x4096_S8x512x8 : S8x4096.ShapeCasts S8x512x8
  transposes_S8x8x512_S8x512x8_0_2_1 : S8x8x512.Transposes [0, 2, 1] S8x512x8
  transposes_S8x512x8_S8x8x512_0_2_1 : S8x512x8.Transposes [0, 2, 1] S8x8x512
  transposes_S512x512_S512x512_1_0 : S512x512.Transposes [1, 0] S512x512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x512x8_S1x512x8_0_0_0 : ∀ a, (![0, 0, 0] : Fin 3 → Nat) a + S1x512x8.size a ≤ S1x512x8.size a
  h_S1x512x8 : 0 < S1x512x8.numel
  shapeCasts_S1x512x8_S512x8 : S1x512x8.ShapeCasts S512x8
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S1024x512_S1x1024x512 : S1024x512.ShapeCasts S1x1024x512
  dot_S8x256_S256x256_S8x256_1_0_0_1_n_n_wf : DotDims.WF S8x256 S256x256 S8x256 [1] [0] [0] [1] [] []
  dot_S8x256_S256x8192_S8x8192_1_0_0_1_n_n_wf : DotDims.WF S8x256 S256x8192 S8x8192 [1] [0] [0] [1] [] []
  dot_S1024x512_S512x512_S1024x512_1_0_0_1_n_n_wf : DotDims.WF S1024x512 S512x512 S1024x512 [1] [0] [0] [1] [] []
  dot_S1024x512_S512x8_S1024x8_1_0_0_1_n_n_wf : DotDims.WF S1024x512 S512x8 S1024x8 [1] [0] [0] [1] [] []
  dot_S1024x8_S8x512_S1024x512_1_0_0_1_n_n_wf : DotDims.WF S1024x8 S8x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x4096x512.size a
  hwx0_0 : ∀ i : grid0.Coords, EltTy.bits .f32 = 32 ∨ (Rect.block (s := S8x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x8.size a ≤ S8x512x8.size a
  hwx0_3 : ∀ i : grid0.Coords, EltTy.bits .f32 = 32 ∨ (Rect.block (s := S8x512x8) S1x512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512.size a ≤ S8x8x512.size a
  hwx0_4 : ∀ i : grid0.Coords, EltTy.bits .f32 = 32 ∨ (Rect.block (s := S8x8x512) S1x8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x4096x512.size a
  hwx0_5 : ∀ i : grid0.Coords, EltTy.bits .f32 = 32 ∨ (Rect.block (s := S8x4096x512) S1x1024x512.size (cc0_transform_5 i) (hinb0_5 i)).WholeWords (EltTy.packing .f32)

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x8192_S8x8192_1_0_0_1_n_n : DotDims S8x256 S256x8192 S8x8192 where
  lhsContracting := [1]
  rhsContracting := [0]
  lhsNonContracting := [0]
  rhsNonContracting := [1]
  lhsBatch := []
  rhsBatch := []
  wf := dot_S8x256_S256x8192_S8x8192_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf
def dot_S1024x8_S8x512_S1024x512_1_0_0_1_n_n : DotDims S1024x8 S8x512 S1024x512 where
  lhsContracting := [1]
  rhsContracting := [0]
  lhsNonContracting := [0]
  rhsNonContracting := [1]
  lhsBatch := []
  rhsBatch := []
  wf := dot_S1024x8_S8x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x256 : Shape := ⟨2, ![8, 256]⟩
abbrev S512x512 : Shape := ⟨2, ![512, 512]⟩
abbrev S512 : Shape := ⟨1, ![512]⟩
abbrev S256x256 : Shape := ⟨2, ![256, 256]⟩
abbrev S256 : Shape := ⟨1, ![256]⟩
abbrev S8192x256 : Shape := ⟨2, ![8192, 256]⟩
abbrev S8192 : Shape := ⟨1, ![8192]⟩
abbrev S1x1x512 : Shape := ⟨3, ![1, 1, 512]⟩
abbrev S1x256 : Shape := ⟨2, ![1, 256]⟩
abbrev S_ : Shape := ⟨0, ![]⟩
abbrev S256x8192 : Shape := ⟨2, ![256, 8192]⟩
abbrev S8x8192 : Shape := ⟨2, ![8, 8192]⟩
abbrev S1x8192 : Shape := ⟨2, ![1, 8192]⟩
abbrev S8x4096 : Shape := ⟨2, ![8, 4096]⟩
abbrev S8x8x512 : Shape := ⟨3, ![8, 8, 512]⟩
abbrev S8x512x8 : Shape := ⟨3, ![8, 512, 8]⟩
abbrev S8x4096x8 : Shape := ⟨3, ![8, 4096, 8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256, .f32⟩
  | .hbm, ⟨2, _⟩ => ⟨S512x512, .f32⟩
  | .hbm, ⟨3, _⟩ => ⟨S512, .f32⟩
  | .hbm, ⟨4, _⟩ => ⟨S256x256, .f32⟩
  | .hbm, ⟨5, _⟩ => ⟨S256, .f32⟩
  | .hbm, ⟨6, _⟩ => ⟨S8192x256, .f32⟩
  | .hbm, ⟨7, _⟩ => ⟨S8192, .f32⟩
  | .hbm, ⟨8, _⟩ => ⟨S8x4096x512, .f32⟩
  | .hbm, ⟨9, _⟩ => ⟨S1x1x512, .f32⟩
  | .hbm, ⟨10, _⟩ => ⟨S8x4096x512, .f32⟩
  | .hbm, ⟨11, _⟩ => ⟨S8x4096x512, .f32⟩
  | .hbm, ⟨12, _⟩ => ⟨S256x256, .f32⟩
  | .hbm, ⟨13, _⟩ => ⟨S8x256, .f32⟩
  | .hbm, ⟨14, _⟩ => ⟨S1x256, .f32⟩
  | .hbm, ⟨15, _⟩ => ⟨S8x256, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S256x8192, .f32⟩
  | .hbm, ⟨27, _⟩ => ⟨S8x8192, .f32⟩
  | .hbm, ⟨28, _⟩ => ⟨S1x8192, .f32⟩
  | .hbm, ⟨29, _⟩ => ⟨S8x8192, .f32⟩
  | .hbm, ⟨30, _⟩ => ⟨S8x8192, .f32⟩
  | .hbm, ⟨31, _⟩ => ⟨S8x4096, .f32⟩
  | .hbm, ⟨32, _⟩ => ⟨S8x8x512, .f32⟩
  | .hbm, ⟨33, _⟩ => ⟨S8x4096, .f32⟩
  | .hbm, ⟨34, _⟩ => ⟨S8x512x8, .f32⟩
  | .hbm, ⟨35, _⟩ => ⟨S8x4096x8, .f32⟩
  | .hbm, ⟨36, _⟩ => ⟨S8x4096x512, .f32⟩
  | .hbm, ⟨37, _⟩ => ⟨S_, .f32⟩
  | .hbm, ⟨38, _⟩ => ⟨S8x4096x512, .f32⟩
  | .hbm, ⟨39, _⟩ => ⟨S8x4096x512, .f32⟩
  | .hbm, ⟨40, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  transposes_S256x256_S256x256_1_0 : S256x256.Transposes [1, 0] S256x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  transposes_S8192x256_S256x8192_1_0 : S8192x256.Transposes [1, 0] S256x8192
  bcast_S8192_S1x8192_1 : S8192.BroadcastsInDim S1x8192 (![1] : Fin 1 → Fin S1x8192.rank)
  bcast_S1x8192_S8x8192_0_1 : S1x8192.BroadcastsInDim S8x8192 (![0, 1] : Fin 2 → Fin S8x8192.rank)
  slices_S8x8192_S8x4096_0_0 : S8x8192.Slices ![0, 0] S8x4096
  shapeCasts_S8x4096_S8x8x512 : S8x4096.ShapeCasts S8x8x512
  slices_S8x8192_S8x4096_0_4096 : S8x8192.Slices ![0, 4096] S8x4096
  shapeCasts_S8x4096_S8x512x8 : S8x4096.ShapeCasts S8x512x8
  bcast_S_S8x4096x512 : S_.BroadcastsInDim S8x4096x512 (![] : Fin 0 → Fin S8x4096x512.rank)
  dot_S8x4096x512_S512x512_S8x4096x512_2_1_01_0_n_n_wf : DotDims.WF S8x4096x512 S512x512 S8x4096x512 [2] [1] [0, 1] [0] [] []
  dot_S8x256_S256x256_S8x256_1_0_0_1_n_n_wf : DotDims.WF S8x256 S256x256 S8x256 [1] [0] [0] [1] [] []
  dot_S8x256_S256x8192_S8x8192_1_0_0_1_n_n_wf : DotDims.WF S8x256 S256x8192 S8x8192 [1] [0] [0] [1] [] []
  dot_S8x4096x512_S8x8x512_S8x4096x8_2_2_1_1_0_0_wf : DotDims.WF S8x4096x512 S8x8x512 S8x4096x8 [2] [2] [1] [1] [0] [0]
  dot_S8x4096x8_S8x512x8_S8x4096x512_2_2_1_1_0_0_wf : DotDims.WF S8x4096x8 S8x512x8 S8x4096x512 [2] [2] [1] [1] [0] [0]

variable [Facts₀]

def dot_S8x4096x512_S512x512_S8x4096x512_2_1_01_0_n_n : DotDims S8x4096x512 S512x512 S8x4096x512 where
  lhsContracting := [2]
  rhsContracting := [1]
  lhsNonContracting := [0, 1]
  rhsNonContracting := [0]
  lhsBatch := []
  rhsBatch := []
  wf := dot_S8x4096x512_S512x512_S8x4096x512_2_1_01_0_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x8192_S8x8192_1_0_0_1_n_n : DotDims S8x256 S256x8192 S8x8192 where
  lhsContracting := [1]
  rhsContracting := [0]
  lhsNonContracting := [0]
  rhsNonContracting := [1]
  lhsBatch := []
  rhsBatch := []
  wf := dot_S8x256_S256x8192_S8x8192_1_0_0_1_n_n_wf
def dot_S8x4096x512_S8x8x512_S8x4096x8_2_2_1_1_0_0 : DotDims S8x4096x512 S8x8x512 S8x4096x8 where
  lhsContracting := [2]
  rhsContracting := [2]
  lhsNonContracting := [1]
  rhsNonContracting := [1]
  lhsBatch := [0]
  rhsBatch := [0]
  wf := dot_S8x4096x512_S8x8x512_S8x4096x8_2_2_1_1_0_0_wf
def dot_S8x4096x8_S8x512x8_S8x4096x512_2_2_1_1_0_0 : DotDims S8x4096x8 S8x512x8 S8x4096x512 where
  lhsContracting := [2]
  rhsContracting := [2]
  lhsNonContracting := [1]
  rhsNonContracting := [1]
  lhsBatch := [0]
  rhsBatch := [0]
  wf := dot_S8x4096x8_S8x512x8_S8x4096x512_2_2_1_1_0_0_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Payload.lean ====
/-
  The kernel body's one stored value, read at an entry.

  On a block of 1024 rows the body forms three matrix products into zero accumulators — rows × base weights,
  rows × the first low-rank factor, and that 1024 × 8 result × the second factor — adds the bias row to the
  first and the third product to that. The changes of float format in between are the identity on extended
  reals, and the casts only add or drop a leading axis of extent one. So entry (p, o) of the stored block is

      (Σ_d x[0, p, d] · W[d, o] + bias[0, o]) + Σ_r (Σ_d x[0, p, d] · P[0, d, r]) · Q[0, r, o].
-/
import proofs.«159864_j60000693125372_1_alg».proof.Proof.Gen.KernelIdeal.Skeleton
import proofs.«159864_j60000693125372_1_alg».proof.Proof.LibDense
import Idealize.ShloMosaic.Lib.Pipeline.Value
import Idealize.ShloMosaic.Lib.ValueLayout
import Idealize.ShloMosaic.Lib.ValueIdx
import Idealize.ShloMosaic.PureOps.Ideal.Laws

noncomputable section

namespace Cert.Lora.Body

open Cert.KernelIdeal Cert.KernelIdeal.Gen Idealize.ShloMosaic Idealize.ShloMosaic.ValueIdx

/-- Entry (p, o) of the block the body stores, from the five blocks it loads. -/
theorem payload_apply (x : Vec Ideal S1x1024x512 .f32) (W : Vec Ideal S512x512 .f32) (bias : Vec Ideal S1x512 .f32)
    (P : Vec Ideal S1x512x8 .f32) (Q : Vec Ideal S1x8x512 .f32) (u : Fin 1) (p : Fin 1024) (o : Fin 512) :
    k0_pay1 (F := Ideal) x W bias P Q (ix3 u p o)
      = (∑ d : Fin 512, x (ix3 (0 : Fin 1) p d) * W (ix2 d o) + bias (ix2 (0 : Fin 1) o))
        + ∑ r : Fin 8, (∑ d : Fin 512, x (ix3 (0 : Fin 1) p d) * P (ix3 (0 : Fin 1) d r)) * Q (ix3 (0 : Fin 1) r o) := by
  unfold k0_pay1
  rw [shapeCast_ab_1ab_apply]
  rw [addf_apply, addf_apply]
  simp only [Idealize.ShloMosaic.matmul]
  rw [Cert.LibDense.matmul_zero_apply _ none rfl rfl rfl rfl rfl rfl, Cert.LibDense.matmul_zero_apply _ none rfl rfl rfl rfl rfl rfl]
  rw [broadcastTo_1b_ab_apply]
  simp only [truncf_apply, Cert.LibDense.matmul_zero_apply dot_S1024x512_S512x8_S1024x8_1_0_0_1_n_n none rfl rfl rfl rfl rfl rfl,
    shapeCast_1ab_ab_apply, shapeCast_self]

end Cert.Lora.Body

end
-- ==== Proof.HostArrays.lean ====
/-
  What the region finds in the four windows that the host wrote.

  Before the region the host transposes the base weights, gives the bias a leading axis of extent one, and
  transposes each of the two low-rank factors within every batch entry. Read at an entry:

      weights window (d, o) = w[o, d]                 bias window (0, o) = bias[o]
      first factor window (b, d, r) = A[b, r, d]      second factor window (b, r, o) = B[b, o, r]

  where A and B are the reshaped halves of the small network's output, the very terms the reference forms.
-/
import proofs.«159864_j60000693125372_1_alg».proof.Proof.Gen.KernelIdeal.Frame
import proofs.«159864_j60000693125372_1_alg».proof.Proof.Gen.ReferenceIdeal.Read
import Idealize.ShloMosaic.Lib.Pipeline.Value
import Idealize.ShloMosaic.Lib.ValueLayout
import Idealize.ShloMosaic.Lib.ValueIdx
import Idealize.ShloMosaic.Lib.StableHlo.Run

noncomputable section

namespace Cert.Lora.Host

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The first low-rank factor, 8 × 8 × 512: the first half of the small network's output, reshaped. -/
abbrev factorA (c : Dev nD) : (⟨3, ![8, 8, 512]⟩ : Shape).Idx → EReal :=
  Cert.ReferenceIdeal.Read.val_main_v16 (F := Ideal) (m ((c : Thread nD τ).loc main_arg1)) (m ((c : Thread nD τ).loc main_arg4))
    (m ((c : Thread nD τ).loc main_arg5)) (m ((c : Thread nD τ).loc main_arg6)) (m ((c : Thread nD τ).loc main_arg7))

/-- The second low-rank factor, 8 × 512 × 8: the second half, reshaped. -/
abbrev factorB (c : Dev nD) : (⟨3, ![8, 512, 8]⟩ : Shape).Idx → EReal :=
  Cert.ReferenceIdeal.Read.val_main_v18 (F := Ideal) (m ((c : Thread nD τ).loc main_arg1)) (m ((c : Thread nD τ).loc main_arg4))
    (m ((c : Thread nD τ).loc main_arg5)) (m ((c : Thread nD τ).loc main_arg6)) (m ((c : Thread nD τ).loc main_arg7))

theorem weights_eq (c : Dev nD) : (V m c main_v17 : S512x512.Idx → EReal)
    = transpose S512x512 [1, 0] (m ((c : Thread nD τ).loc main_arg2)) transposes_S512x512_S512x512_1_0 := by
  dsimp only [V]
  simp only [hostOps0, hostOps0_1, hostOps0_2, List.flatten_cons, List.flatten_nil, List.append_nil, List.cons_append, List.nil_append]
  after_results

theorem bias_eq (c : Dev nD) : (V m c main_v18 : S1x512.Idx → EReal)
    = shapeCast S1x512 (m ((c : Thread nD τ).loc main_arg3)) shapeCasts_S512_S1x512 := by
  dsimp only [V]
  simp only [hostOps0, hostOps0_1, hostOps0_2, List.flatten_cons, List.flatten_nil, List.append_nil, List.cons_append, List.nil_append]
  after_results
  rfl

set_option maxHeartbeats 2000000 in
theorem first_eq (c : Dev nD) : (V m c main_v15 : S8x512x8.Idx → EReal)
    = transpose S8x512x8 [0, 2, 1] (factorA m c) transposes_S8x8x512_S8x512x8_0_2_1 := by
  dsimp only [V]
  simp only [hostOps0, hostOps0_1, hostOps0_2, List.flatten_cons, List.flatten_nil, List.append_nil, List.cons_append, List.nil_append]
  after_results_simp
  rfl

set_option maxHeartbeats 2000000 in
theorem second_eq (c : Dev nD) : (V m c main_v16 : S8x8x512.Idx → EReal)
    = transpose S8x8x512 [0, 2, 1] (factorB m c) transposes_S8x512x8_S8x8x512_0_2_1 := by
  dsimp only [V]
  simp only [hostOps0, hostOps0_1, hostOps0_2, List.flatten_cons, List.flatten_nil, List.append_nil, List.cons_append, List.nil_append]
  after_results_simp
  rfl

/-- The weights window at (d, o) is the base weight of output o and feature d. -/
theorem weights_apply (c : Dev nD) (d o : Fin 512) :
    (V m c main_v17 : S512x512.Idx → EReal) (ix2 d o) = (m ((c : Thread nD τ).loc main_arg2) : S512x512.Idx → EReal) (ix2 o d) := by
  rw [weights_eq]; exact transpose_ix2_apply _ _ d o

/-- The bias window's one row at o is the bias of output o. -/
theorem bias_apply (c : Dev nD) (u : Fin 1) (o : Fin 512) :
    (V m c main_v18 : S1x512.Idx → EReal) (ix2 u o) = (m ((c : Thread nD τ).loc main_arg3) : S512.Idx → EReal) (ix1 o) := by
  rw [bias_eq]; exact shapeCast_a_1a_apply _ _ u o

/-- The first factor's window at (b, d, r) is A at (b, r, d). -/
theorem first_apply (c : Dev nD) (b : Fin 8) (d : Fin 512) (r : Fin 8) :
    (V m c main_v15 : S8x512x8.Idx → EReal) (ix3 b d r) = factorA m c (ix3 b r d) := by
  rw [first_eq]; exact transpose_ix3_021_apply _ _ b d r

/-- The second factor's window at (b, r, o) is B at (b, o, r). -/
theorem second_apply (c : Dev nD) (b : Fin 8) (r : Fin 8) (o : Fin 512) :
    (V m c main_v16 : S8x8x512.Idx → EReal) (ix3 b r o) = factorB m c (ix3 b o r) := by
  rw [second_eq]; exact transpose_ix3_021_apply _ _ b r o

end Cert.Lora.Host

end
-- ==== Proof.LoraSpec.lean ====
/-
  The function both programs compute, written once over literal shapes.

  For a batch entry `b`, a row `t` and an output column `o`:

      out[b, t, o] = (Σ_d x[b, t, d] · w[o, d] + bias[o]) + Σ_r (Σ_d x[b, t, d] · A[b, r, d]) · B[b, o, r]

  a base linear layer plus a rank-8 correction whose two factors `A` (8 × 8 × 512) and `B` (8 × 512 × 8) are
  per-batch-entry matrices. Every sum is a finite sum of extended reals; nothing here distributes a product over
  a sum, so no entry has to be finite.
-/
import Idealize.ShloMosaic.PureOps.Ideal
import Idealize.ShloMosaic.Lib.ValueIdx

noncomputable section

namespace Cert.Lora

open Idealize.ShloMosaic Idealize.ShloMosaic.ValueIdx

/-- The result at batch entry `b`, row `t`, column `o`: the base product with its bias, plus the low-rank
    correction `(x · Aᵀ) · Bᵀ` with the inner product over the 512 features taken first and the outer one over
    the 8 ranks second. -/
def fusedAt (x : (⟨3, ![8, 4096, 512]⟩ : Shape).Idx → EReal) (w : (⟨2, ![512, 512]⟩ : Shape).Idx → EReal)
    (bias : (⟨1, ![512]⟩ : Shape).Idx → EReal) (A : (⟨3, ![8, 8, 512]⟩ : Shape).Idx → EReal)
    (B : (⟨3, ![8, 512, 8]⟩ : Shape).Idx → EReal) (b : Fin 8) (t : Fin 4096) (o : Fin 512) : EReal :=
  (∑ d : Fin 512, x (ix3 b t d) * w (ix2 o d) + bias (ix1 o))
    + ∑ r : Fin 8, (∑ d : Fin 512, x (ix3 b t d) * A (ix3 b r d)) * B (ix3 b o r)

/-- The whole result array: `fusedAt` at an index's three coordinates. -/
def fused (x : (⟨3, ![8, 4096, 512]⟩ : Shape).Idx → EReal) (w : (⟨2, ![512, 512]⟩ : Shape).Idx → EReal)
    (bias : (⟨1, ![512]⟩ : Shape).Idx → EReal) (A : (⟨3, ![8, 8, 512]⟩ : Shape).Idx → EReal)
    (B : (⟨3, ![8, 512, 8]⟩ : Shape).Idx → EReal) : (⟨3, ![8, 4096, 512]⟩ : Shape).Idx → EReal :=
  fun i => fusedAt x w bias A B (i 0) (i 1) (i 2)

theorem fused_ix3 (x : (⟨3, ![8, 4096, 512]⟩ : Shape).Idx → EReal) (w : (⟨2, ![512, 512]⟩ : Shape).Idx → EReal)
    (bias : (⟨1, ![512]⟩ : Shape).Idx → EReal) (A : (⟨3, ![8, 8, 512]⟩ : Shape).Idx → EReal)
    (B : (⟨3, ![8, 512, 8]⟩ : Shape).Idx → EReal) (b : Fin 8) (t : Fin 4096) (o : Fin 512) :
    fused x w bias A B (ix3 b t o) = fusedAt x w bias A B b t o := rfl

/-- The single-precision word of `1.0` (sign 0, biased exponent 127, fraction 0) denotes the real number one. -/
theorem one_word : Ideal.ofBits .f32 0x3F800000#32 = (1 : EReal) := by
  simp [Ideal.ofBits, Ideal.ieee]
  rw [← EReal.coe_mul, ← EReal.coe_one]
  exact congrArg _ (by norm_num)

end Cert.Lora

end
-- ==== Proof.KernelValue.lean ====
/-
  The kernel's result array is `fused`.

  The grid has 8 × 4 points; point (bi, ti) works on rows ti·1024 … ti·1024 + 1023 of batch entry bi. Its
  activation block and its output block sit at block index (bi, ti, 0); the weights and the bias are one block
  each, at index 0; the two low-rank factors' blocks are batch entry bi's. So what the point writes back, read at
  (0, p, o), is the body's stored value of those blocks, and through the host's transposes that is `fusedAt` at
  (bi, ti·1024 + p, o). The 32 output blocks tile the 8 × 4096 × 512 array, hence the array ends as `fused`.
-/
import proofs.«159864_j60000693125372_1_alg».proof.Proof.Gen.KernelIdeal.Value
import proofs.«159864_j60000693125372_1_alg».proof.Proof.Payload
import proofs.«159864_j60000693125372_1_alg».proof.Proof.HostArrays
import proofs.«159864_j60000693125372_1_alg».proof.Proof.LoraSpec

noncomputable section

namespace Cert.Lora.Kernel

open Cert.KernelIdeal Cert.KernelIdeal.Gen Idealize.ShloMosaic Idealize.ShloMosaic.TcCoe Idealize.ShloMosaic.ValueIdx
open Idealize.SL.Sem
open Cert.Lora.Host

variable (m : (ℓ : Loc nD τ sig) → Buf (Elt Ideal) ℓ) (ρ : Dev nD → PrngReg)

theorem origin3 : (![0, 0, 0] : Fin 3 → Nat) = fun _ => 0 := funext fun a => by fin_cases a <;> rfl
theorem origin2 : (![0, 0] : Fin 2 → Nat) = fun _ => 0 := funext fun a => by fin_cases a <;> rfl

/-- The result array as one function of the argument arrays: `fused` of the activations, the base weights, the
    bias and the two low-rank factors. -/
abbrev result (c : Dev nD) : (⟨3, ![8, 4096, 512]⟩ : Shape).Idx → EReal :=
  Cert.Lora.fused (m ((c : Thread nD τ).loc main_arg0)) (m ((c : Thread nD τ).loc main_arg2)) (m ((c : Thread nD τ).loc main_arg3))
    (factorA m c) (factorB m c)

/-- Where each window's block sits at a grid point, relative to the output's block (bi, ti, 0): decided over the
    32 points. -/
theorem block_indices : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) < 8 ∧ win0_5.index t (1 : Fin 3) < 4 ∧ win0_5.index t (2 : Fin 3) = 0 :=
  (by decide +kernel : ∀ t : Fin grid0.N, _)

/-- Every (batch entry, row block) pair is some point's output block. -/
theorem block_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-- What point `t` writes back, at (u, p, o) of its block, is `result` at that block entry's place in the array. -/
theorem written_apply (c : Dev nD) (t : Fin cfg0.N) (u : Fin 1) (p : Fin 1024) (o : Fin 512) :
    k0_pay1 (F := Ideal) (iblk m c 0 t) (iblk m c 1 t) (iblk m c 2 t) (iblk m c 3 t) (iblk m c 4 t) (ix3 u p o)
      = result m c (((cfg0.win 5).blk t).view.emb (ix3 u p o)) := by
  obtain ⟨e00, e01, e02, e10, e11, e20, e21, e30, e31, e32, e40, e41, e42, h50, h51, e52⟩ := block_indices t
  have hu : u.val = 0 := by omega
  have hp : p.val < 1024 := p.isLt
  obtain ⟨bi, hbi⟩ : ∃ bi : Fin 8, bi.val = win0_5.index t (0 : Fin 3) := ⟨⟨_, h50⟩, rfl⟩
  obtain ⟨row, hrow⟩ : ∃ row : Fin 4096, row.val = win0_5.index t (1 : Fin 3) * 1024 + p.val := ⟨⟨_, by omega⟩, rfl⟩
  -- the block entry's place in the array
  have hplace : ((cfg0.win 5).blk t).view.emb (ix3 u p o) = ix3 bi row o := by
    funext a; apply Fin.ext
    match a with
    | ⟨0, _⟩ => show win0_5.index t (0 : Fin 3) * 1 + 1 * u.val = bi.val; omega
    | ⟨1, _⟩ => show win0_5.index t (1 : Fin 3) * 1024 + 1 * p.val = row.val; omega
    | ⟨2, _⟩ => show win0_5.index t (2 : Fin 3) * 512 + 1 * o.val = o.val; omega
  -- each input block read where the output's block says
  have rx : ∀ d : Fin 512, (iblk m c 0 t : S1x1024x512.Idx → EReal) (ix3 (0 : Fin 1) p d)
      = (m ((c : Thread nD τ).loc main_arg0) : S8x4096x512.Idx → EReal) (ix3 bi row d) := by
    intro d
    show V m c main_arg0 (((cfg0.win 0).blk t).view.emb (ix3 (0 : Fin 1) p d)) = _
    rw [V_main_arg0]
    refine congrArg _ (funext fun a => Fin.ext ?_)
    match a with
    | ⟨0, _⟩ => show win0_0.index t (0 : Fin 3) * 1 + 1 * 0 = bi.val; omega
    | ⟨1, _⟩ => show win0_0.index t (1 : Fin 3) * 1024 + 1 * p.val = row.val; omega
    | ⟨2, _⟩ => show win0_0.index t (2 : Fin 3) * 512 + 1 * d.val = d.val; omega
  have rw_ : ∀ d : Fin 512, (iblk m c 1 t : S512x512.Idx → EReal) (ix2 d o)
      = (m ((c : Thread nD τ).loc main_arg2) : S512x512.Idx → EReal) (ix2 o d) := by
    intro d
    show (V m c main_v17 : S512x512.Idx → EReal) (((cfg0.win 1).blk t).view.emb (ix2 d o)) = _
    have he : ((cfg0.win 1).blk t).view.emb (ix2 d o) = ix2 d o := by
      funext a; apply Fin.ext
      match a with
      | ⟨0, _⟩ => show win0_1.index t (0 : Fin 2) * 512 + 1 * d.val = d.val; omega
      | ⟨1, _⟩ => show win0_1.index t (1 : Fin 2) * 512 + 1 * o.val = o.val; omega
    rw [he]; exact weights_apply m c d o
  have rb : (iblk m c 2 t : S1x512.Idx → EReal) (ix2 (0 : Fin 1) o)
      = (m ((c : Thread nD τ).loc main_arg3) : S512.Idx → EReal) (ix1 o) := by
    show (V m c main_v18 : S1x512.Idx → EReal) (((cfg0.win 2).blk t).view.emb (ix2 (0 : Fin 1) o)) = _
    have he : ((cfg0.win 2).blk t).view.emb (ix2 (0 : Fin 1) o) = ix2 (0 : Fin 1) o := by
      funext a; apply Fin.ext
      match a with
      | ⟨0, _⟩ => show win0_2.index t (0 : Fin 2) * 1 + 1 * 0 = 0; omega
      | ⟨1, _⟩ => show win0_2.index t (1 : Fin 2) * 512 + 1 * o.val = o.val; omega
    rw [he]; exact bias_apply m c 0 o
  have rA : ∀ (d : Fin 512) (r : Fin 8), (iblk m c 3 t : S1x512x8.Idx → EReal) (ix3 (0 : Fin 1) d r) = factorA m c (ix3 bi r d) := by
    intro d r
    show (V m c main_v15 : S8x512x8.Idx → EReal) (((cfg0.win 3).blk t).view.emb (ix3 (0 : Fin 1) d r)) = _
    have he : ((cfg0.win 3).blk t).view.emb (ix3 (0 : Fin 1) d r) = ix3 bi d r := by
      funext a; apply Fin.ext
      match a with
      | ⟨0, _⟩ => show win0_3.index t (0 : Fin 3) * 1 + 1 * 0 = bi.val; omega
      | ⟨1, _⟩ => show win0_3.index t (1 : Fin 3) * 512 + 1 * d.val = d.val; omega
      | ⟨2, _⟩ => show win0_3.index t (2 : Fin 3) * 8 + 1 * r.val = r.val; omega
    rw [he]; exact first_apply m c bi d r
  have rB : ∀ r : Fin 8, (iblk m c 4 t : S1x8x512.Idx → EReal) (ix3 (0 : Fin 1) r o) = factorB m c (ix3 bi o r) := by
    intro r
    show (V m c main_v16 : S8x8x512.Idx → EReal) (((cfg0.win 4).blk t).view.emb (ix3 (0 : Fin 1) r o)) = _
    have he : ((cfg0.win 4).blk t).view.emb (ix3 (0 : Fin 1) r o) = ix3 bi r o := by
      funext a; apply Fin.ext
      match a with
      | ⟨0, _⟩ => show win0_4.index t (0 : Fin 3) * 1 + 1 * 0 = bi.val; omega
      | ⟨1, _⟩ => show win0_4.index t (1 : Fin 3) * 8 + 1 * r.val = r.val; omega
      | ⟨2, _⟩ => show win0_4.index t (2 : Fin 3) * 512 + 1 * o.val = o.val; omega
    rw [he]; exact second_apply m c bi r o
  refine (Cert.Lora.Body.payload_apply _ _ _ _ _ u p o).trans ?_
  rw [hplace]
  refine Eq.trans ?_ (Cert.Lora.fused_ix3 _ _ _ _ _ bi row o).symm
  unfold Cert.Lora.fusedAt
  simp only [rx, rw_, rb, rA, rB]

/-- What point `t` writes back is block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin3]
  simp only [View.ld_unit_zero (S := S1x1024x512) origin3, View.ld_unit_zero (S := S512x512) origin2,
    View.ld_unit_zero (S := S1x512) origin2, View.ld_unit_zero (S := S1x512x8) origin3, View.ld_unit_zero (S := S1x8x512) origin3]
  refine funext fun (j : S1x1024x512.Idx) => ?_
  show k0_pay1 (F := Ideal) (iblk m c 0 t) (iblk m c 1 t) (iblk m c 2 t) (iblk m c 3 t) (iblk m c 4 t) j
    = result m c (((cfg0.win 5).blk t).view.emb j)
  rw [eq_ix3 j]
  exact written_apply m c t (j 0) (j 1) (j 2)

/-- An array index is in point `t`'s output block iff each coordinate is in the block's range on its axis. -/
theorem mem_block (t : Fin cfg0.N) (i : S8x4096x512.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v19).slice (win0_5.rect t)).set ↔ _
  rw [View.set_slice_whole, Rect.mem_set_unit]
  exact Iff.rfl

/-- Every array index lies in the output block of the point (its batch entry, its row's block of 1024). -/
theorem covered (i : S8x4096x512.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 512 := (i 2).isLt
  obtain ⟨t, ht⟩ := block_onto ⟨(i 0).val, h0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- The output array after the run is `result`. -/
theorem final (c : Dev nD) : (dats m 0 c).arrAt 5 cfg0.N = result m c :=
  (dats m 0 c).arrAt_eq_of_cover 5 (result m c) (fun t _ => flushed_eq m c t) covered

end Cert.Lora.Kernel

end
-- ==== Proof.RefSide.lean ====
/-
  The reference's result is `fused`.

  Read one operation at a time, the reference's last stage at (b, t, o) is the base product plus the broadcast
  bias, plus ONE TIMES the low-rank correction; its two batched products contract the 512 features and then the
  8 ranks, with the batch entry carried along. The word of the scale denotes 1, and 1 · y = y for every extended
  real y, infinite ones included. The two low-rank factors are left as the reference's own stages (the reshaped
  halves of the small network's output): nothing here looks inside them.
-/
import proofs.«159864_j60000693125372_1_alg».proof.Proof.Gen.ReferenceIdeal.Read
import proofs.«159864_j60000693125372_1_alg».proof.Proof.LoraSpec

noncomputable section

namespace Cert.Lora.Ref

open Cert.ReferenceIdeal Cert.ReferenceIdeal.Read Idealize.ShloMosaic Idealize.ShloMosaic.ValueIdx

/-! The composed index maps of the stages, at an index given by its coordinates. -/

theorem base_lhs (b : Fin 8) (t : Fin 4096) (o : Fin 512) (d : Fin 512) : lidx_main_v0 (ix3 b t o) d = ix3 b t d :=
  funext fun a => match a with | ⟨0, _⟩ => rfl | ⟨1, _⟩ => rfl | ⟨2, _⟩ => rfl
theorem base_rhs (b : Fin 8) (t : Fin 4096) (o : Fin 512) (d : Fin 512) : ridx_main_v0 (ix3 b t o) d = ix2 o d :=
  funext fun a => match a with | ⟨0, _⟩ => rfl | ⟨1, _⟩ => rfl
theorem bias_idx (b : Fin 8) (t : Fin 4096) (o : Fin 512) : idx_main_v1 (idx_main_v2 (ix3 b t o)) = ix1 o :=
  funext fun a => match a with | ⟨0, _⟩ => rfl
theorem up_lhs (b : Fin 8) (t : Fin 4096) (o : Fin 512) (r : Fin 8) : lidx_main_v20 (ix3 b t o) r = ix3 b t r :=
  funext fun a => match a with | ⟨0, _⟩ => rfl | ⟨1, _⟩ => rfl | ⟨2, _⟩ => rfl
theorem up_rhs (b : Fin 8) (t : Fin 4096) (o : Fin 512) (r : Fin 8) : ridx_main_v20 (ix3 b t o) r = ix3 b o r :=
  funext fun a => match a with | ⟨0, _⟩ => rfl | ⟨1, _⟩ => rfl | ⟨2, _⟩ => rfl
theorem down_lhs (b : Fin 8) (t : Fin 4096) (r : Fin 8) (d : Fin 512) : lidx_main_v19 (ix3 b t r) d = ix3 b t d :=
  funext fun a => match a with | ⟨0, _⟩ => rfl | ⟨1, _⟩ => rfl | ⟨2, _⟩ => rfl
theorem down_rhs (b : Fin 8) (t : Fin 4096) (r : Fin 8) (d : Fin 512) : ridx_main_v19 (ix3 b t r) d = ix3 b r d :=
  funext fun a => match a with | ⟨0, _⟩ => rfl | ⟨1, _⟩ => rfl | ⟨2, _⟩ => rfl

/-- The reference's last stage is `fused` of the activations, the base weights, the bias and the reference's own two
    low-rank factor stages. -/
theorem reference_eq (x0 : (⟨S8x4096x512, .f32⟩ : BufTy).Contents (Elt Ideal)) (x1 : (⟨S8x256, .f32⟩ : BufTy).Contents (Elt Ideal))
    (x2 : (⟨S512x512, .f32⟩ : BufTy).Contents (Elt Ideal)) (x3 : (⟨S512, .f32⟩ : BufTy).Contents (Elt Ideal))
    (x4 : (⟨S256x256, .f32⟩ : BufTy).Contents (Elt Ideal)) (x5 : (⟨S256, .f32⟩ : BufTy).Contents (Elt Ideal))
    (x6 : (⟨S8192x256, .f32⟩ : BufTy).Contents (Elt Ideal)) (x7 : (⟨S8192, .f32⟩ : BufTy).Contents (Elt Ideal)) :
    val_main_v23 (F := Ideal) x0 x1 x2 x3 x4 x5 x6 x7
      = Cert.Lora.fused x0 x2 x3 (val_main_v16 (F := Ideal) x1 x4 x5 x6 x7) (val_main_v18 (F := Ideal) x1 x4 x5 x6 x7) := by
  funext i
  obtain ⟨b, t, o, rfl⟩ : ∃ (b : Fin 8) (t : Fin 4096) (o : Fin 512), i = ix3 b t o := ⟨i 0, i 1, i 2, eq_ix3 i⟩
  rw [val_main_v23_apply, val_main_v3_apply, val_main_v0_apply, val_main_v2_apply, val_main_v1_apply, val_main_v22_apply,
    val_main_v21_apply, val_main_cst_apply, val_main_v20_apply, Cert.Lora.fused_ix3]
  simp only [val_main_v19_apply, base_lhs, base_rhs, bias_idx, up_lhs, up_rhs, down_lhs, down_rhs, Ideal.addf_def, Ideal.mulf_def,
    Ideal.ofBits_def, Cert.Lora.one_word, one_mul]
  rfl

end Cert.Lora.Ref

end
-- ==== Proof.lean ====
/-
  A base linear layer with a per-sample low-rank correction, fused in one kernel, against its plain reference.

  Both programs first run the same small network on the style embedding (a linear layer, x · sigmoid x, a second
  linear layer) and cut its 8 × 8192 output into two factors per batch entry, A (8 × 512) and B (512 × 8). The
  reference then forms

      out[b, t, o] = (Σ_d x[b, t, d] · w[o, d] + bias[o]) + 1 · Σ_r (Σ_d x[b, t, d] · A[b, r, d]) · B[b, o, r]

  with three general dot products on whole arrays. The kernel transposes w, A and B on the host and, for each of
  8 × 4 blocks of 1024 rows, forms the same three products on the matrix unit into zero accumulators, after
  rounding their operands to a narrower float format. On extended reals that rounding is the identity, a product
  into a zero accumulator is the plain sum over the contracted axis, and a transpose only renames an index; so
  entry by entry the kernel's block is the reference's value, and the 32 blocks tile the result. The one
  remaining difference is the reference's factor 1, and 1 · y = y for every extended real y.

  No step distributes a product over a sum or cancels anything, so the equality holds for all extended-real
  inputs and the finiteness precondition is never opened. The two factors A and B are never looked into: both
  programs build them by the same operations, and the kernel side states its result over the reference's own
  terms for them.

  Modules: LoraSpec (the function), Payload (the body's stored value at an entry), HostArrays (the transposed
  windows at an entry), KernelValue (blocks to array), RefSide (the reference's last stage is the function),
  LibDense (a plain matrix product at an entry).
-/
import proofs.«159864_j60000693125372_1_alg».proof.Defs
import proofs.«159864_j60000693125372_1_alg».proof.Proof.Gen.Kernel
import proofs.«159864_j60000693125372_1_alg».proof.Proof.Gen.Kernel.Skeleton
import proofs.«159864_j60000693125372_1_alg».proof.Proof.Gen.Kernel.Launch
import proofs.«159864_j60000693125372_1_alg».proof.Proof.Gen.Kernel.Points
import proofs.«159864_j60000693125372_1_alg».proof.Proof.Gen.Kernel.Frame
import proofs.«159864_j60000693125372_1_alg».proof.Proof.Gen.KernelIdeal
import proofs.«159864_j60000693125372_1_alg».proof.Proof.Gen.KernelIdeal.Skeleton
import proofs.«159864_j60000693125372_1_alg».proof.Proof.Gen.KernelIdeal.Launch
import proofs.«159864_j60000693125372_1_alg».proof.Proof.Gen.KernelIdeal.Points
import proofs.«159864_j60000693125372_1_alg».proof.Proof.Gen.KernelIdeal.Frame
import proofs.«159864_j60000693125372_1_alg».proof.Proof.Gen.ReferenceIdeal
import proofs.«159864_j60000693125372_1_alg».proof.Proof.Gen.Pre_finite_inputs
import proofs.«159864_j60000693125372_1_alg».proof.Proof.Gen.KernelIdeal.Value
import proofs.«159864_j60000693125372_1_alg».proof.Proof.Gen.ReferenceIdeal.Run
import proofs.«159864_j60000693125372_1_alg».proof.Proof.Gen.ReferenceIdeal.Read
import proofs.«159864_j60000693125372_1_alg».proof.Proof.KernelValue
import proofs.«159864_j60000693125372_1_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the result array at `fused` of the
    activations, the base weights, the bias and the two low-rank factors: the kernel because its 32 blocks tile
    the array with that function's values, the reference because its last stage is that function with a factor
    one in front of the correction. -/
theorem algebraic : Cert.algebraic_KernelIdeal_ReferenceIdeal := by
  intro m ρ m' ρ' _ hagree
  refine ⟨fun c => Cert.Lora.Kernel.result m c, ?_, ?_⟩
  · exact (θ_run Cert.KernelIdeal.defs _ _).mono
      (fun r h c => ⟨(h c).1.trans (Cert.Lora.Kernel.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.Lora.Ref.reference_eq]
    obtain ⟨a0, a1, a2, a3, a4, a5, a6, a7⟩ := hagree c
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
